-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x1 : Shape := ⟨3, ![64, 16384, 1]⟩
abbrev S16384x64x3 : Shape := ⟨3, ![16384, 64, 3]⟩
abbrev S16384x64 : Shape := ⟨2, ![16384, 64]⟩
abbrev S_ : Shape := ⟨0, ![]⟩

class Facts : Prop where
  bcast_S_S64x16384x1 : S_.BroadcastsInDim S64x16384x1 (![] : Fin 0 → Fin S64x16384x1.rank)
  reducesTo_S64x16384x1_S_d0_1_2 : S64x16384x1.ReducesTo [0, 1, 2] S_
  h_S_ : 0 < S_.numel
  bcast_S_S16384x64x3 : S_.BroadcastsInDim S16384x64x3 (![] : Fin 0 → Fin S16384x64x3.rank)
  reducesTo_S16384x64x3_S_d0_1_2 : S16384x64x3.ReducesTo [0, 1, 2] S_
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S64x16384x1 .f32) (main_arg1 : FVec F S16384x64x3 .f32) (main_arg2 : FVec F S16384x64 .f32) : IVec S_ 1 :=
  let main_v0 : FVec F S64x16384x1 .f32 := Host.absf main_arg0
  let main_cst : FVec F S_ .f32 := constant S_ .f32 0x7F800000#32
  let main_v1 : FVec F S64x16384x1 .f32 := broadcastInDim S64x16384x1 ![] bcast_S_S64x16384x1 main_cst
  let main_v2 : IVec S64x16384x1 1 := cmpf .olt main_v0 main_v1
  let main_c : IVec S_ 1 := constantI S_ 1 1#1
  let main_v3 : IVec S_ 1 := (fun x v => Host.reduce IntOp.andi x v reducesTo_S64x16384x1_S_d0_1_2 h_S_) main_v2 main_c
  let main_v4 : FVec F S16384x64x3 .f32 := Host.absf main_arg1
  let main_cst_0 : FVec F S_ .f32 := constant S_ .f32 0x7F800000#32
  let main_v5 : FVec F S16384x64x3 .f32 := broadcastInDim S16384x64x3 ![] bcast_S_S16384x64x3 main_cst_0
  let main_v6 : IVec S16384x64x3 1 := cmpf .olt main_v4 main_v5
  let main_c_1 : IVec S_ 1 := constantI S_ 1 1#1
  let main_v7 : IVec S_ 1 := (fun x v => Host.reduce IntOp.andi x v reducesTo_S16384x64x3_S_d0_1_2 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  main_v13
-- ==== Kernel.lean ====
abbrev S64x16384x1 : Shape := ⟨3, ![64, 16384, 1]⟩
abbrev S16384x64x3 : Shape := ⟨3, ![16384, 64, 3]⟩
abbrev S16384x64 : Shape := ⟨2, ![16384, 64]⟩
abbrev S64x16384 : Shape := ⟨2, ![64, 16384]⟩
abbrev S64x1 : Shape := ⟨2, ![64, 1]⟩
abbrev S64x16383 : Shape := ⟨2, ![64, 16383]⟩
abbrev S64x16384x64 : Shape := ⟨3, ![64, 16384, 64]⟩
abbrev S64x256 : Shape := ⟨2, ![64, 256]⟩
abbrev S256x64x3 : Shape := ⟨3, ![256, 64, 3]⟩
abbrev S256x64 : Shape := ⟨2, ![256, 64]⟩
abbrev S64x256x64 : Shape := ⟨3, ![64, 256, 64]⟩
abbrev S256x64x1 : Shape := ⟨3, ![256, 64, 1]⟩
abbrev S64x256x1 : Shape := ⟨3, ![64, 256, 1]⟩
abbrev S1x256x64 : Shape := ⟨3, ![1, 256, 64]⟩

abbrev nBuf : Space → Nat
  | .hbm => 11
  | .vmem => 12
  | .smem => 0
  | _ => 0

abbrev bufTy : (tb : Table) → Fin (tcTables nBuf tb) → BufTy
  | .hbm, ⟨0, _⟩ => ⟨S64x16384x1, .f32⟩
  | .hbm, ⟨1, _⟩ => ⟨S16384x64x3, .f32⟩
  | .hbm, ⟨2, _⟩ => ⟨S16384x64, .f32⟩
  | .hbm, ⟨3, _⟩ => ⟨S64x16384, .f32⟩
  | .hbm, ⟨4, _⟩ => ⟨S64x1, .f32⟩
  | .hbm, ⟨5, _⟩ => ⟨S64x16383, .f32⟩
  | .hbm, ⟨6, _⟩ => ⟨S64x16384, .f32⟩
  | .hbm, ⟨7, _⟩ => ⟨S64x16383, .f32⟩
  | .hbm, ⟨8, _⟩ => ⟨S64x1, .f32⟩
  | .hbm, ⟨9, _⟩ => ⟨S64x16384, .f32⟩
  | .hbm, ⟨10, _⟩ => ⟨S64x16384x64, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S256x64x3, .f32⟩
  | .local _ .vmem, ⟨7, _⟩ => ⟨S256x64x3, .f32⟩
  | .local _ .vmem, ⟨8, _⟩ => ⟨S256x64, .f32⟩
  | .local _ .vmem, ⟨9, _⟩ => ⟨S256x64, .f32⟩
  | .local _ .vmem, ⟨10, _⟩ => ⟨S64x256x64, .f32⟩
  | .local _ .vmem, ⟨11, _⟩ => ⟨S64x256x64, .f32⟩
  | _, _ => ⟨S64x16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x16384x1_S64x16384 : S64x16384x1.ShapeCasts S64x16384
  slices_S64x16384_S64x1_0_16383 : S64x16384.Slices ![0, 16383] S64x1
  slices_S64x16384_S64x16383_0_0 : S64x16384.Slices ![0, 0] S64x16383
  concatenates_S64x1_S64x16383_S64x16384_d1 : Shape.Concatenates [S64x1, S64x16383] S64x16384 1
  slices_S64x16384_S64x16383_0_1 : S64x16384.Slices ![0, 1] S64x16383
  slices_S64x16384_S64x1_0_0 : S64x16384.Slices ![0, 0] S64x1
  concatenates_S64x16383_S64x1_S64x16384_d1 : Shape.Concatenates [S64x16383, S64x1] S64x16384 1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x64x3_S256x64x3_0_0_0 : ∀ a, (![0, 0, 0] : Fin 3 → Nat) a + S256x64x3.size a ≤ S256x64x3.size a
  h_S256x64x3 : 0 < S256x64x3.numel
  inb_S256x64_S256x64_0_0 : ∀ a, (![0, 0] : Fin 2 → Nat) a + S256x64.size a ≤ S256x64.size a
  h_S256x64 : 0 < S256x64.numel
  slices_S256x64x3_o0_0_0_S256x64x1 : S256x64x3.Slices ![0, 0, 0] S256x64x1
  shapeCasts_S256x64x1_S256x64 : S256x64x1.ShapeCasts S256x64
  slices_S256x64x3_o0_0_1_S256x64x1 : S256x64x3.Slices ![0, 0, 1] S256x64x1
  slices_S256x64x3_o0_0_2_S256x64x1 : S256x64x3.Slices ![0, 0, 2] S256x64x1
  shapeCasts_S64x256_S64x256x1 : S64x256.ShapeCasts S64x256x1
  shapeCasts_S256x64_S1x256x64 : S256x64.ShapeCasts S1x256x64
  broadcasts_S64x256x1_S64x256x64 : S64x256x1.Broadcasts S64x256x64
  broadcasts_S1x256x64_S64x256x64 : S1x256x64.Broadcasts S64x256x64
  inb_S64x256x64_S64x256x64_0_0_0 : ∀ a, (![0, 0, 0] : Fin 3 → Nat) a + S64x256x64.size a ≤ S64x256x64.size a
  h_S64x256x64 : 0 < S64x256x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x16384.size a
  hwx0_0 : ∀ i : grid0.Coords, EltTy.bits .f32 = 32 ∨ (Rect.block (s := S64x16384) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x16384.size a
  hwx0_1 : ∀ i : grid0.Coords, EltTy.bits .f32 = 32 ∨ (Rect.block (s := S64x16384) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x16384.size a
  hwx0_2 : ∀ i : grid0.Coords, EltTy.bits .f32 = 32 ∨ (Rect.block (s := S64x16384) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64x3.size a ≤ S16384x64x3.size a
  hwx0_3 : ∀ i : grid0.Coords, EltTy.bits .f32 = 32 ∨ (Rect.block (s := S16384x64x3) S256x64x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S16384x64.size a
  hwx0_4 : ∀ i : grid0.Coords, EltTy.bits .f32 = 32 ∨ (Rect.block (s := S16384x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256x64.size a ≤ S64x16384x64.size a
  hwx0_5 : ∀ i : grid0.Coords, EltTy.bits .f32 = 32 ∨ (Rect.block (s := S64x16384x64) S64x256x64.size (cc0_transform_5 i) (hinb0_5 i)).WholeWords (EltTy.packing .f32)

variable [Facts₀]

abbrev win0_0 : Pipeline.Window sig grid0 :=
  Pipeline.Window.ofSpec (Memref.whole main_v1) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x64x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x16384x1 : Shape := ⟨3, ![64, 16384, 1]⟩
abbrev S16384x64x3 : Shape := ⟨3, ![16384, 64, 3]⟩
abbrev S16384x64 : Shape := ⟨2, ![16384, 64]⟩
abbrev S64x16384 : Shape := ⟨2, ![64, 16384]⟩
abbrev S64x1 : Shape := ⟨2, ![64, 1]⟩
abbrev S64x16383 : Shape := ⟨2, ![64, 16383]⟩
abbrev S16384x64x1 : Shape := ⟨3, ![16384, 64, 1]⟩
abbrev S1x16384x64 : Shape := ⟨3, ![1, 16384, 64]⟩
abbrev S64x16384x64 : Shape := ⟨3, ![64, 16384, 64]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S64x16384x1, .f32⟩
  | .hbm, ⟨1, _⟩ => ⟨S16384x64x3, .f32⟩
  | .hbm, ⟨2, _⟩ => ⟨S16384x64, .f32⟩
  | .hbm, ⟨3, _⟩ => ⟨S64x16384, .f32⟩
  | .hbm, ⟨4, _⟩ => ⟨S64x1, .f32⟩
  | .hbm, ⟨5, _⟩ => ⟨S64x16383, .f32⟩
  | .hbm, ⟨6, _⟩ => ⟨S64x16384, .f32⟩
  | .hbm, ⟨7, _⟩ => ⟨S64x16383, .f32⟩
  | .hbm, ⟨8, _⟩ => ⟨S64x1, .f32⟩
  | .hbm, ⟨9, _⟩ => ⟨S64x16384, .f32⟩
  | .hbm, ⟨10, _⟩ => ⟨S64x16384x1, .f32⟩
  | .hbm, ⟨11, _⟩ => ⟨S16384x64x1, .f32⟩
  | .hbm, ⟨12, _⟩ => ⟨S16384x64, .f32⟩
  | .hbm, ⟨13, _⟩ => ⟨S1x16384x64, .f32⟩
  | .hbm, ⟨14, _⟩ => ⟨S64x16384x64, .f32⟩
  | .hbm, ⟨15, _⟩ => ⟨S64x16384x64, .f32⟩
  | .hbm, ⟨16, _⟩ => ⟨S64x16384x64, .f32⟩
  | .hbm, ⟨17, _⟩ => ⟨S64x16384x1, .f32⟩
  | .hbm, ⟨18, _⟩ => ⟨S16384x64x1, .f32⟩
  | .hbm, ⟨19, _⟩ => ⟨S16384x64, .f32⟩
  | .hbm, ⟨20, _⟩ => ⟨S1x16384x64, .f32⟩
  | .hbm, ⟨21, _⟩ => ⟨S64x16384x64, .f32⟩
  | .hbm, ⟨22, _⟩ => ⟨S64x16384x64, .f32⟩
  | .hbm, ⟨23, _⟩ => ⟨S64x16384x64, .f32⟩
  | .hbm, ⟨24, _⟩ => ⟨S64x16384x64, .f32⟩
  | .hbm, ⟨25, _⟩ => ⟨S64x16384x1, .f32⟩
  | .hbm, ⟨26, _⟩ => ⟨S16384x64x1, .f32⟩
  | .hbm, ⟨27, _⟩ => ⟨S16384x64, .f32⟩
  | .hbm, ⟨28, _⟩ => ⟨S1x16384x64, .f32⟩
  | .hbm, ⟨29, _⟩ => ⟨S64x16384x64, .f32⟩
  | .hbm, ⟨30, _⟩ => ⟨S64x16384x64, .f32⟩
  | .hbm, ⟨31, _⟩ => ⟨S64x16384x64, .f32⟩
  | .hbm, ⟨32, _⟩ => ⟨S64x16384x64, .f32⟩
  | .hbm, ⟨33, _⟩ => ⟨S1x16384x64, .f32⟩
  | .hbm, ⟨34, _⟩ => ⟨S64x16384x64, .f32⟩
  | .hbm, ⟨35, _⟩ => ⟨S64x16384x64, .f32⟩
  | .hbm, ⟨36, _⟩ => ⟨S_, .f32⟩
  | .hbm, ⟨37, _⟩ => ⟨S64x16384x64, .f32⟩
  | .hbm, ⟨38, _⟩ => ⟨S64x16384x64, .f32⟩
  | .hbm, ⟨39, _⟩ => ⟨S64x16384x64, .f32⟩
  | .hbm, ⟨40, _⟩ => ⟨S_, .f32⟩
  | .hbm, ⟨41, _⟩ => ⟨S64x16384x64, .f32⟩
  | .hbm, ⟨42, _⟩ => ⟨S64x16384x64, .f32⟩
  | _, _ => ⟨S64x16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  shapeCasts_S64x16384x1_S64x16384 : S64x16384x1.ShapeCasts S64x16384
  slices_S64x16384_S64x1_0_16383 : S64x16384.Slices ![0, 16383] S64x1
  slices_S64x16384_S64x16383_0_0 : S64x16384.Slices ![0, 0] S64x16383
  concatenates_S64x1_S64x16383_S64x16384_d1 : Shape.Concatenates [S64x1, S64x16383] S64x16384 1
  slices_S64x16384_S64x16383_0_1 : S64x16384.Slices ![0, 1] S64x16383
  slices_S64x16384_S64x1_0_0 : S64x16384.Slices ![0, 0] S64x1
  concatenates_S64x16383_S64x1_S64x16384_d1 : Shape.Concatenates [S64x16383, S64x1] S64x16384 1
  bcast_S64x16384_S64x16384x1_0_1 : S64x16384.BroadcastsInDim S64x16384x1 (![0, 1] : Fin 2 → Fin S64x16384x1.rank)
  slices_S16384x64x3_S16384x64x1_0_0_0 : S16384x64x3.Slices ![0, 0, 0] S16384x64x1
  shapeCasts_S16384x64x1_S16384x64 : S16384x64x1.ShapeCasts S16384x64
  bcast_S16384x64_S1x16384x64_1_2 : S16384x64.BroadcastsInDim S1x16384x64 (![1, 2] : Fin 2 → Fin S1x16384x64.rank)
  bcast_S64x16384x1_S64x16384x64_0_1_2 : S64x16384x1.BroadcastsInDim S64x16384x64 (![0, 1, 2] : Fin 3 → Fin S64x16384x64.rank)
  bcast_S1x16384x64_S64x16384x64_0_1_2 : S1x16384x64.BroadcastsInDim S64x16384x64 (![0, 1, 2] : Fin 3 → Fin S64x16384x64.rank)
  slices_S16384x64x3_S16384x64x1_0_0_1 : S16384x64x3.Slices ![0, 0, 1] S16384x64x1
  slices_S16384x64x3_S16384x64x1_0_0_2 : S16384x64x3.Slices ![0, 0, 2] S16384x64x1
  bcast_S_S64x16384x64 : S_.BroadcastsInDim S64x16384x64 (![] : Fin 0 → Fin S64x16384x64.rank)

variable [Facts₀]

class Facts : Prop extends Facts₀ where

variable [Facts]
-- ==== Proof.Spec.lean ====
/-
  The function both programs compute, over the extended reals.

  A row `b` of the input holds one value per cell `n`; each cell has, per class `c`, three tap weights
  `W[n, c, 0..2]` and a bias `B[n, c]`.  With `L`, `X`, `R` the row seen from the left neighbour, the cell itself
  and the right neighbour (three arrays of one shape: how `L` and `R` are obtained from `X` plays no part here),
  the result is

      out[b, n, c] = κ₂ · tanh ((((L[b, n] · W[n, c, 0] + X[b, n] · W[n, c, 1]) + R[b, n] · W[n, c, 2]) + B[n, c]) · κ₁)

  with `κ₁` the binary32 value nearest 2/3 and `κ₂` the binary32 value nearest 1.7159, both kept as their words:
  the same two words stand on both sides, so their values are never needed.  The sum is associated as written;
  no law of the extended reals is used to reassociate or distribute, so infinite entries are as good as finite
  ones.
-/
import Idealize.ShloMosaic.PureOps.Ideal
import Idealize.ShloMosaic.Lib.ValueIdx

noncomputable section

namespace Cert.NeighborAct

open Idealize.ShloMosaic Idealize.ShloMosaic.ValueIdx

/-- The scaled-tanh activation of the three-tap neighbour sum, index by index. -/
def act (L X R : (⟨2, ![64, 16384]⟩ : Shape).Idx → EReal) (W : (⟨3, ![16384, 64, 3]⟩ : Shape).Idx → EReal)
    (B : (⟨2, ![16384, 64]⟩ : Shape).Idx → EReal) : (⟨3, ![64, 16384, 64]⟩ : Shape).Idx → EReal := fun i =>
  Ideal.ofBits .f32 0x3FDBA29C#32 * Ideal.tanh
    ((((L (ix2 (i 0) (i 1)) * W (ix3 (i 1) (i 2) (0 : Fin 3)) + X (ix2 (i 0) (i 1)) * W (ix3 (i 1) (i 2) (1 : Fin 3)))
        + R (ix2 (i 0) (i 1)) * W (ix3 (i 1) (i 2) (2 : Fin 3))) + B (ix2 (i 1) (i 2)))
      * Ideal.ofBits .f32 0x3F2AAAAB#32)

/-- `act` read at an index, as an equation to rewrite with. -/
theorem act_apply (L X R : (⟨2, ![64, 16384]⟩ : Shape).Idx → EReal) (W : (⟨3, ![16384, 64, 3]⟩ : Shape).Idx → EReal)
    (B : (⟨2, ![16384, 64]⟩ : Shape).Idx → EReal) (i : (⟨3, ![64, 16384, 64]⟩ : Shape).Idx) :
    act L X R W B i = Ideal.ofBits .f32 0x3FDBA29C#32 * Ideal.tanh
      ((((L (ix2 (i 0) (i 1)) * W (ix3 (i 1) (i 2) (0 : Fin 3)) + X (ix2 (i 0) (i 1)) * W (ix3 (i 1) (i 2) (1 : Fin 3)))
          + R (ix2 (i 0) (i 1)) * W (ix3 (i 1) (i 2) (2 : Fin 3))) + B (ix2 (i 1) (i 2)))
        * Ideal.ofBits .f32 0x3F2AAAAB#32) := rfl

end Cert.NeighborAct

end
-- ==== Proof.KernelBlocks.lean ====
/-
  The kernel's result array is `act` of the three row arrays its windows stage, the weights and the bias.

  The grid has 64 points; point `t` works on cells `256 t … 256 t + 255`.  Its three row windows hold columns
  `256 t + q` of the left, centre and right rows, its weight window rows `256 t + q` of the weights, its bias
  window rows `256 t + q` of the bias, and what it writes back is the slab `[0, 64) × [256 t, 256 t + 256) × [0, 64)`
  of the result.  The body's one store leaves, at block coordinates `(p, q, r)`, the activation of the three
  products and the bias read at block coordinates `(p, q)`, `(q, r, k)` and `(q, r)`; under the block offsets these
  are the array coordinates `(p, 256 t + q)`, `(256 t + q, r, k)`, `(256 t + q, r)` that `act` reads at
  `(p, 256 t + q, r)`.  The 64 slabs are disjoint and fill the cell axis, so the array ends as `act` everywhere.

  The left and right rows are made before the launch, from the squeezed input, by slicing off one end column and
  joining it at the other end; they are kept here as those terms of the input (`rowL`, `rowR`), unread.
-/
import proofs.«125400_j59519656788346_1_alg».proof.Proof.Gen.KernelIdeal.Value
import proofs.«125400_j59519656788346_1_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.Blocks

open Cert.KernelIdeal Cert.KernelIdeal.Gen Cert.NeighborAct
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## One entry of a block -/

/-- The body's block function at block index `y` is `act` at array index `i`, once each of its seven reads of the
    loaded blocks is the matching read of the arrays. -/
theorem block_entry (L X R : S64x16384.Idx → EReal) (W : S16384x64x3.Idx → EReal) (B : S16384x64.Idx → EReal)
    (P0 P2 P3 : Vec Ideal S64x256 .f32) (P1 : Vec Ideal S256x64x3 .f32) (P4 : Vec Ideal S256x64 .f32)
    (y : S64x256x64.Idx) (i : S64x16384x64.Idx)
    (hL : P0 (Value.ix5_0 y) = L (ix2 (i 0) (i 1))) (hW0 : P1 (Value.ix5_1 y) = W (ix3 (i 1) (i 2) (0 : Fin 3)))
    (hX : P2 (Value.ix5_2 y) = X (ix2 (i 0) (i 1))) (hW1 : P1 (Value.ix5_3 y) = W (ix3 (i 1) (i 2) (1 : Fin 3)))
    (hR : P3 (Value.ix5_4 y) = R (ix2 (i 0) (i 1))) (hW2 : P1 (Value.ix5_5 y) = W (ix3 (i 1) (i 2) (2 : Fin 3)))
    (hB : P4 (Value.ix5_6 y) = B (ix2 (i 1) (i 2))) :
    Value.E5 (F := Ideal) P0 P1 P2 P3 P4 y = act L X R W B i := by
  rw [act_apply, ← hL, ← hW0, ← hX, ← hW1, ← hR, ← hW2, ← hB]
  rfl

/-! ## The windows' block indices, decided over the 64 points -/

/-- Every row window sits at block `(0, t)`, the weight window at `(t, 0, 0)`, the bias window at `(t, 0)` and the
    output window at `(0, t, 0)`, for one and the same `t ≤ 63`: stated as relations to the output's cell-axis block
    index, which is all the block reads need. -/
theorem idx_facts : ∀ t : Fin cfg0.N,
    win0_0.index t (0 : Fin 2) = 0 ∧ win0_0.index t (1 : Fin 2) = win0_5.index t (1 : Fin 3)
    ∧ win0_1.index t (0 : Fin 2) = 0 ∧ win0_1.index t (1 : Fin 2) = win0_5.index t (1 : Fin 3)
    ∧ win0_2.index t (0 : Fin 2) = 0 ∧ win0_2.index t (1 : Fin 2) = win0_5.index t (1 : Fin 3)
    ∧ win0_3.index t (0 : Fin 3) = win0_5.index t (1 : Fin 3) ∧ win0_3.index t (1 : Fin 3) = 0 ∧ win0_3.index t (2 : Fin 3) = 0
    ∧ win0_4.index t (0 : Fin 2) = win0_5.index t (1 : Fin 3) ∧ win0_4.index t (1 : Fin 2) = 0
    ∧ win0_5.index t (0 : Fin 3) = 0 ∧ win0_5.index t (2 : Fin 3) = 0 ∧ win0_5.index t (1 : Fin 3) ≤ 63 :=
  (by decide +kernel : ∀ t : Fin grid0.N, _)

/-- Every one of the 64 slabs of the cell axis is some point's. -/
theorem idx_onto : ∀ q : Fin 64, ∃ t : Fin cfg0.N, win0_5.index t = ![0, q.val, 0] :=
  (by decide +kernel : ∀ q : Fin 64, ∃ t : Fin grid0.N, win0_5.index t = ![0, q.val, 0])

/-! ## What a point writes back -/

/-- Point `t` writes back slab `t` of `act` of the arrays as the launch finds them. -/
theorem flushed_eq (c : Dev nD) (t : Fin cfg0.N) :
    (dats m 0 c).flushed 5 t = ((cfg0.win 5).blk t).view.read (Elt Ideal)
      (act (V m c main_v1) (V m c main_v0) (V m c main_v2) (V m c main_arg1) (V m c main_arg2)) := by
  rw [Value.flushed5]
  unfold out0_5
  simp only [View.ld_unit_zero (S := S64x256) zeros2, View.ld_unit_zero (S := S256x64x3) zeros3, View.ld_unit_zero (S := S256x64) zeros2]
  obtain ⟨a00, a01, a10, a11, a20, a21, a30, a31, a32, a40, a41, a50, a52, a51⟩ := idx_facts t
  funext j
  have hj0 : (j 0).val < 64 := (j 0).isLt
  have hj1 : (j 1).val < 256 := (j 1).isLt
  have hj2 : (j 2).val < 64 := (j 2).isLt
  show (View.canon [(⟨r0_3, k0_pay1 (iblk m c 0 t) (iblk m c 1 t) (iblk m c 2 t) (iblk m c 3 t) (iblk m c 4 t)⟩ : View.Piece (Elt Ideal) S64x256x64 .f32)] : Vec Ideal S64x256x64 .f32) j
    = act (V m c main_v1) (V m c main_v0) (V m c main_v2) (V m c main_arg1) (V m c main_arg2) (((cfg0.win 5).blk t).view.emb j)
  refine (Value.canon5_eq (F := Ideal) (iblk m c 0 t) (iblk m c 3 t) (iblk m c 1 t) (iblk m c 2 t) (iblk m c 4 t) j).trans ?_
  refine block_entry (V m c main_v1) (V m c main_v0) (V m c main_v2) (V m c main_arg1) (V m c main_arg2)
    (iblk m c 0 t) (iblk m c 1 t) (iblk m c 2 t) (iblk m c 3 t) (iblk m c 4 t) j (((cfg0.win 5).blk t).view.emb j) ?_ ?_ ?_ ?_ ?_ ?_ ?_
  · show V m c main_v1 (((cfg0.win 0).blk t).view.emb _) = _
    refine congrArg (V m c main_v1) (funext fun a => Fin.ext ?_)
    match a with
    | ⟨0, _⟩ => show win0_0.index t (0 : Fin 2) * 64 + 1 * (j 0).val = win0_5.index t (0 : Fin 3) * 64 + 1 * (j 0).val; omega
    | ⟨1, _⟩ => show win0_0.index t (1 : Fin 2) * 256 + 1 * (j 1).val = win0_5.index t (1 : Fin 3) * 256 + 1 * (j 1).val; omega
  · show V m c main_arg1 (((cfg0.win 3).blk t).view.emb _) = _
    refine congrArg (V m c main_arg1) (funext fun a => Fin.ext ?_)
    match a with
    | ⟨0, _⟩ => show win0_3.index t (0 : Fin 3) * 256 + 1 * (j 1).val = win0_5.index t (1 : Fin 3) * 256 + 1 * (j 1).val; omega
    | ⟨1, _⟩ => show win0_3.index t (1 : Fin 3) * 64 + 1 * (j 2).val = win0_5.index t (2 : Fin 3) * 64 + 1 * (j 2).val; omega
    | ⟨2, _⟩ => show win0_3.index t (2 : Fin 3) * 3 + 1 * 0 = 0; omega
  · show V m c main_v0 (((cfg0.win 1).blk t).view.emb _) = _
    refine congrArg (V m c main_v0) (funext fun a => Fin.ext ?_)
    match a with
    | ⟨0, _⟩ => show win0_1.index t (0 : Fin 2) * 64 + 1 * (j 0).val = win0_5.index t (0 : Fin 3) * 64 + 1 * (j 0).val; omega
    | ⟨1, _⟩ => show win0_1.index t (1 : Fin 2) * 256 + 1 * (j 1).val = win0_5.index t (1 : Fin 3) * 256 + 1 * (j 1).val; omega
  · show V m c main_arg1 (((cfg0.win 3).blk t).view.emb _) = _
    refine congrArg (V m c main_arg1) (funext fun a => Fin.ext ?_)
    match a with
    | ⟨0, _⟩ => show win0_3.index t (0 : Fin 3) * 256 + 1 * (j 1).val = win0_5.index t (1 : Fin 3) * 256 + 1 * (j 1).val; omega
    | ⟨1, _⟩ => show win0_3.index t (1 : Fin 3) * 64 + 1 * (j 2).val = win0_5.index t (2 : Fin 3) * 64 + 1 * (j 2).val; omega
    | ⟨2, _⟩ => show win0_3.index t (2 : Fin 3) * 3 + 1 * 1 = 1; omega
  · show V m c main_v2 (((cfg0.win 2).blk t).view.emb _) = _
    refine congrArg (V m c main_v2) (funext fun a => Fin.ext ?_)
    match a with
    | ⟨0, _⟩ => show win0_2.index t (0 : Fin 2) * 64 + 1 * (j 0).val = win0_5.index t (0 : Fin 3) * 64 + 1 * (j 0).val; omega
    | ⟨1, _⟩ => show win0_2.index t (1 : Fin 2) * 256 + 1 * (j 1).val = win0_5.index t (1 : Fin 3) * 256 + 1 * (j 1).val; omega
  · show V m c main_arg1 (((cfg0.win 3).blk t).view.emb _) = _
    refine congrArg (V m c main_arg1) (funext fun a => Fin.ext ?_)
    match a with
    | ⟨0, _⟩ => show win0_3.index t (0 : Fin 3) * 256 + 1 * (j 1).val = win0_5.index t (1 : Fin 3) * 256 + 1 * (j 1).val; omega
    | ⟨1, _⟩ => show win0_3.index t (1 : Fin 3) * 64 + 1 * (j 2).val = win0_5.index t (2 : Fin 3) * 64 + 1 * (j 2).val; omega
    | ⟨2, _⟩ => show win0_3.index t (2 : Fin 3) * 3 + 1 * 2 = 2; omega
  · show V m c main_arg2 (((cfg0.win 4).blk t).view.emb _) = _
    refine congrArg (V m c main_arg2) (funext fun a => Fin.ext ?_)
    match a with
    | ⟨0, _⟩ => show win0_4.index t (0 : Fin 2) * 256 + 1 * (j 1).val = win0_5.index t (1 : Fin 3) * 256 + 1 * (j 1).val; omega
    | ⟨1, _⟩ => show win0_4.index t (1 : Fin 2) * 64 + 1 * (j 2).val = win0_5.index t (2 : Fin 3) * 64 + 1 * (j 2).val; omega

/-! ## The slabs fill the array -/

/-- An index of the result array is in point `t`'s slab iff each coordinate is in the slab's range on its axis. -/
theorem mem_blk (t : Fin cfg0.N) (i : S64x16384x64.Idx) :
    i ∈ ((cfg0.win 5).blk t).view.set ↔ ∀ a : Fin 3, win0_5.index t a * S64x256x64.size a ≤ (i a).val ∧ (i a).val < win0_5.index t a * S64x256x64.size a + S64x256x64.size a := by
  show i ∈ ((View.whole main_v3).slice (win0_5.rect t)).set ↔ _
  rw [View.set_slice_whole, Rect.mem_set_unit]
  exact Iff.rfl

/-- Every index is in the slab of the point whose cell-axis block index is its cell divided by 256. -/
theorem cover (i : S64x16384x64.Idx) : ∃ t : Fin cfg0.N, (cfg0.win 5).flush t = true ∧ i ∈ ((cfg0.win 5).blk t).view.set := by
  have hi0 : (i 0).val < 64 := (i 0).isLt
  have hi1 : (i 1).val < 16384 := (i 1).isLt
  have hi2 : (i 2).val < 64 := (i 2).isLt
  obtain ⟨t, ht⟩ := idx_onto ⟨(i 1).val / 256, by omega⟩
  have q0 : win0_5.index t (0 : Fin 3) = 0 := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 64 ≤ (i 0).val ∧ (i 0).val < win0_5.index t (0 : Fin 3) * 64 + 64; omega
  | ⟨1, _⟩ => show win0_5.index t (1 : Fin 3) * 256 ≤ (i 1).val ∧ (i 1).val < win0_5.index t (1 : Fin 3) * 256 + 256; omega
  | ⟨2, _⟩ => show win0_5.index t (2 : Fin 3) * 64 ≤ (i 2).val ∧ (i 2).val < win0_5.index t (2 : Fin 3) * 64 + 64; omega

/-- The result array after the run is `act` of the arrays as the launch finds them. -/
theorem final (c : Dev nD) : (dats m 0 c).arrAt 5 cfg0.N
    = act (V m c main_v1) (V m c main_v0) (V m c main_v2) (V m c main_arg1) (V m c main_arg2) :=
  (dats m 0 c).arrAt_eq_of_cover 5 _ (fun t _ => flushed_eq m c t) cover

/-! ## The row arrays the launch finds -/

/-- The input with its unit tap axis dropped: one value per batch row and cell. -/
def rowX (x : S64x16384x1.Idx → Elt Ideal .f32) : S64x16384.Idx → Elt Ideal .f32 :=
  shapeCast S64x16384 x shapeCasts_S64x16384x1_S64x16384

/-- The rows rotated one cell to the right: the last column joined in front of the first 16383. -/
def rowL (x : S64x16384x1.Idx → Elt Ideal .f32) : S64x16384.Idx → Elt Ideal .f32 :=
  concatenate S64x16384 1 [⟨S64x1, extractStridedSlice S64x1 ![0, 16383] (rowX x) slices_S64x16384_S64x1_0_16383⟩,
    ⟨S64x16383, extractStridedSlice S64x16383 ![0, 0] (rowX x) slices_S64x16384_S64x16383_0_0⟩] concatenates_S64x1_S64x16383_S64x16384_d1

/-- The rows rotated one cell to the left: the last 16383 columns joined in front of the first. -/
def rowR (x : S64x16384x1.Idx → Elt Ideal .f32) : S64x16384.Idx → Elt Ideal .f32 :=
  concatenate S64x16384 1 [⟨S64x16383, extractStridedSlice S64x16383 ![0, 1] (rowX x) slices_S64x16384_S64x16383_0_1⟩,
    ⟨S64x1, extractStridedSlice S64x1 ![0, 0] (rowX x) slices_S64x16384_S64x1_0_0⟩] concatenates_S64x16383_S64x1_S64x16384_d1

theorem V_centre (c : Dev nD) : (V m c main_v0 : S64x16384.Idx → Elt Ideal .f32) = rowX (m ((c : Thread nD τ).loc main_arg0)) := by
  unfold rowX
  dsimp only [V]
  simp only [hostOps0, hostOps0_1, hostOps0_2, List.flatten_cons, List.flatten_nil, List.append_nil, List.cons_append, List.nil_append]
  after_results
  rfl

theorem V_left (c : Dev nD) : (V m c main_v1 : S64x16384.Idx → Elt Ideal .f32) = rowL (m ((c : Thread nD τ).loc main_arg0)) := by
  unfold rowL rowX
  dsimp only [V]
  simp only [hostOps0, hostOps0_1, hostOps0_2, List.flatten_cons, List.flatten_nil, List.append_nil, List.cons_append, List.nil_append]
  after_results
  rfl

theorem V_right (c : Dev nD) : (V m c main_v2 : S64x16384.Idx → Elt Ideal .f32) = rowR (m ((c : Thread nD τ).loc main_arg0)) := by
  unfold rowR rowX
  dsimp only [V]
  simp only [hostOps0, hostOps0_1, hostOps0_2, List.flatten_cons, List.flatten_nil, List.append_nil, List.cons_append, List.nil_append]
  after_results
  rfl

/-! ## The run, read -/

/-- Every weakly fair run ends with the result array at `act` of the rotated rows, the squeezed row, the weights and
    the bias as launched, and the three arguments unchanged. -/
theorem run : θ_run defs (onTc (τ := τ) (main (F := Ideal))) ⟨m, fun _ => 0, ρ⟩ fun r => ∀ c : Dev nD,
      r.2.mem ((c : Thread nD τ).loc main_v3)
        = act (rowL (m ((c : Thread nD τ).loc main_arg0))) (rowX (m ((c : Thread nD τ).loc main_arg0)))
            (rowR (m ((c : Thread nD τ).loc main_arg0))) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      rw [V_left, V_centre, V_right, V_main_arg1, V_main_arg2])), (h c).2⟩)
    (Value.run_blocks m ρ)

end Cert.KernelIdeal.Blocks

end
-- ==== Proof.RefStages.lean ====
/-
  The reference program's result is `act` of its own three row arrays.

  The reference forms the left- and right-neighbour rows `L`, `R` from the squeezed input `X` by two rotations
  along the cell axis, then broadcasts each of `L`, `X`, `R` over the class axis and each tap of the weights and
  the bias over the batch axis, and combines them pointwise.  Read at an index `(b, n, c)` every broadcast, slice
  and reshape lands on one entry of its operand: `L`, `X`, `R` at `(b, n)`, the weights at `(n, c, k)` for tap
  `k`, the bias at `(n, c)`.  The only arithmetic is on the flattened position of the reshape that drops the unit
  tap axis: `(n · 64 + c) / 64 = n` and `(n · 64 + c) % 64 = c` for `c < 64`.
-/
import proofs.«125400_j59519656788346_1_alg».proof.Proof.Gen.ReferenceIdeal.Read
import proofs.«125400_j59519656788346_1_alg».proof.Proof.Spec

noncomputable section

namespace Cert.ReferenceIdeal.Stages

open Cert.ReferenceIdeal Cert.ReferenceIdeal.Read Cert.NeighborAct
open Idealize.ShloMosaic Idealize.ShloMosaic.ValueIdx

/-- A broadcast row array is read at the batch and cell coordinates. -/
theorem idx_left (i : S64x16384x64.Idx) : idx_main_v3 (idx_main_v7 i) = ix2 (i 0) (i 1) := by
  funext a; match a with | ⟨0, _⟩ => rfl | ⟨1, _⟩ => rfl
theorem idx_centre (i : S64x16384x64.Idx) : idx_main_v10 (idx_main_v14 i) = ix2 (i 0) (i 1) := by
  funext a; match a with | ⟨0, _⟩ => rfl | ⟨1, _⟩ => rfl
theorem idx_right (i : S64x16384x64.Idx) : idx_main_v18 (idx_main_v22 i) = ix2 (i 0) (i 1) := by
  funext a; match a with | ⟨0, _⟩ => rfl | ⟨1, _⟩ => rfl

/-- Tap 0 of the weights, sliced, squeezed and broadcast over the batch, is read at `(n, c, 0)`. -/
theorem idx_tap0 (i : S64x16384x64.Idx) : idx_main_v4 (idx_main_v5 (idx_main_v6 (idx_main_v8 i))) = ix3 (i 1) (i 2) (0 : Fin 3) := by
  have h2 : (i 2).val < 64 := (i 2).isLt
  funext a; apply Fin.ext
  match a with
  | ⟨0, _⟩ => show ((i 1).val * 64 + (i 2).val) / 64 = (i 1).val; omega
  | ⟨1, _⟩ => show ((i 1).val * 64 + (i 2).val) / 1 % 64 = (i 2).val; omega
  | ⟨2, _⟩ => rfl
/-- Tap 1 is read at `(n, c, 1)`. -/
theorem idx_tap1 (i : S64x16384x64.Idx) : idx_main_v11 (idx_main_v12 (idx_main_v13 (idx_main_v15 i))) = ix3 (i 1) (i 2) (1 : Fin 3) := by
  have h2 : (i 2).val < 64 := (i 2).isLt
  funext a; apply Fin.ext
  match a with
  | ⟨0, _⟩ => show ((i 1).val * 64 + (i 2).val) / 64 = (i 1).val; omega
  | ⟨1, _⟩ => show ((i 1).val * 64 + (i 2).val) / 1 % 64 = (i 2).val; omega
  | ⟨2, _⟩ => rfl
/-- Tap 2 is read at `(n, c, 2)`. -/
theorem idx_tap2 (i : S64x16384x64.Idx) : idx_main_v19 (idx_main_v20 (idx_main_v21 (idx_main_v23 i))) = ix3 (i 1) (i 2) (2 : Fin 3) := by
  have h2 : (i 2).val < 64 := (i 2).isLt
  funext a; apply Fin.ext
  match a with
  | ⟨0, _⟩ => show ((i 1).val * 64 + (i 2).val) / 64 = (i 1).val; omega
  | ⟨1, _⟩ => show ((i 1).val * 64 + (i 2).val) / 1 % 64 = (i 2).val; omega
  | ⟨2, _⟩ => rfl
/-- The bias, broadcast over the batch, is read at `(n, c)`. -/
theorem idx_bias (i : S64x16384x64.Idx) : idx_main_v26 (idx_main_v27 i) = ix2 (i 1) (i 2) := by
  funext a; match a with | ⟨0, _⟩ => rfl | ⟨1, _⟩ => rfl

/-- The reference's last stage is `act` of its rotated rows, its squeezed row, the weights and the bias. -/
theorem result_eq (x0 : (⟨S64x16384x1, .f32⟩ : BufTy).Contents (Elt Ideal)) (x1 : (⟨S16384x64x3, .f32⟩ : BufTy).Contents (Elt Ideal))
    (x2 : (⟨S16384x64, .f32⟩ : BufTy).Contents (Elt Ideal)) :
    val_main_v33 (F := Ideal) x0 x1 x2
      = act (val_main_v1 (F := Ideal) x0) (val_main_v0 (F := Ideal) x0) (val_main_v2 (F := Ideal) x0) x1 x2 := by
  funext i
  simp only [val_main_v33_apply, val_main_v32_apply, val_main_cst_0_apply, val_main_v31_apply, val_main_v30_apply,
    val_main_v29_apply, val_main_cst_apply, val_main_v28_apply, val_main_v27_apply, val_main_v26_apply, val_main_v25_apply,
    val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply]
  rw [idx_left, idx_centre, idx_right, idx_tap0, idx_tap1, idx_tap2, idx_bias, act_apply]
  rfl

end Cert.ReferenceIdeal.Stages

end
-- ==== Proof.lean ====
/-
  A three-tap neighbour layer with a scaled tanh: for a batch row `b`, a cell `n` and a class `c`,

      out[b, n, c] = κ₂ · tanh ((((x[b, n − 1] · W[n, c, 0] + x[b, n] · W[n, c, 1]) + x[b, n + 1] · W[n, c, 2]) + B[n, c]) · κ₁),

  the neighbours taken cyclically along the cell axis, `κ₁` the binary32 nearest 2/3 and `κ₂` the binary32 nearest 1.7159.

  Both programs build the two neighbour rows the same way — the squeezed input with one end column sliced off and
  joined at the other end — so those rows are one term of the input on both sides and are never read at an index.
  The kernel then tiles the cell axis into 64 slabs of 256 cells and computes each slab from the matching columns of
  the three rows and the matching rows of the weights and the bias; the reference broadcasts everything to the full
  result shape and combines pointwise.  Index by index both are the function `Cert.NeighborAct.act` of the three rows,
  the weights and the bias, with the sum associated the same way and the same two constant words: the two results are
  equal on all extended reals, and finiteness of the inputs is not used.

  The frames of the two kernel programs and the reference's run are the generated ones; the idealization rewrote
  nothing, so there is nothing to preserve.
-/
import proofs.«125400_j59519656788346_1_alg».proof.Defs
import proofs.«125400_j59519656788346_1_alg».proof.Proof.Gen.Kernel
import proofs.«125400_j59519656788346_1_alg».proof.Proof.Gen.Kernel.Skeleton
import proofs.«125400_j59519656788346_1_alg».proof.Proof.Gen.Kernel.Launch
import proofs.«125400_j59519656788346_1_alg».proof.Proof.Gen.Kernel.Points
import proofs.«125400_j59519656788346_1_alg».proof.Proof.Gen.Kernel.Frame
import proofs.«125400_j59519656788346_1_alg».proof.Proof.Gen.KernelIdeal
import proofs.«125400_j59519656788346_1_alg».proof.Proof.Gen.KernelIdeal.Skeleton
import proofs.«125400_j59519656788346_1_alg».proof.Proof.Gen.KernelIdeal.Launch
import proofs.«125400_j59519656788346_1_alg».proof.Proof.Gen.KernelIdeal.Points
import proofs.«125400_j59519656788346_1_alg».proof.Proof.Gen.KernelIdeal.Frame
import proofs.«125400_j59519656788346_1_alg».proof.Proof.Gen.ReferenceIdeal
import proofs.«125400_j59519656788346_1_alg».proof.Proof.Gen.Pre_finite_inputs
import proofs.«125400_j59519656788346_1_alg».proof.Proof.Gen.KernelIdeal.Value
import proofs.«125400_j59519656788346_1_alg».proof.Proof.Gen.ReferenceIdeal.Run
import proofs.«125400_j59519656788346_1_alg».proof.Proof.Gen.ReferenceIdeal.Read
import proofs.«125400_j59519656788346_1_alg».proof.Proof.Spec
import proofs.«125400_j59519656788346_1_alg».proof.Proof.KernelBlocks
import proofs.«125400_j59519656788346_1_alg».proof.Proof.RefStages
import Idealize.ShloMosaic.Adequacy
import Idealize.ShloMosaic.Init

noncomputable section

namespace Cert.Proof

open Idealize.ShloMosaic Idealize.ShloMosaic.TcCoe Idealize.SL.Sem Cert.NeighborAct

/-! ## The two programs' row arrays are one term of the input -/

/-- The squeezed input is the same reshape on both sides. -/
theorem centre_agree (x : Cert.KernelIdeal.S64x16384x1.Idx → Elt Ideal .f32) :
    Cert.ReferenceIdeal.Read.val_main_v0 (F := Ideal) x = Cert.KernelIdeal.Blocks.rowX x := rfl

/-- The row rotated to the right is the same join of the same two slices on both sides. -/
theorem left_agree (x : Cert.KernelIdeal.S64x16384x1.Idx → Elt Ideal .f32) :
    Cert.ReferenceIdeal.Read.val_main_v1 (F := Ideal) x = Cert.KernelIdeal.Blocks.rowL x := rfl

/-- The row rotated to the left likewise. -/
theorem right_agree (x : Cert.KernelIdeal.S64x16384x1.Idx → Elt Ideal .f32) :
    Cert.ReferenceIdeal.Read.val_main_v2 (F := Ideal) x = Cert.KernelIdeal.Blocks.rowR x := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at `act` of the rotated
    rows, the squeezed row, the weights and the bias: the kernel slab by slab, the reference stage by stage. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v33_eq (F := Ideal) _ _ _).trans ?_
  refine (Cert.ReferenceIdeal.Stages.result_eq _ _ _).trans ?_
  rw [centre_agree, left_agree, right_agree]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
